-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S1638400 : Shape := ⟨1, ![1638400]⟩
abbrev S4096 : Shape := ⟨1, ![4096]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1638400 : S_.BroadcastsInDim S1638400 (![] : Fin 0 → Fin S1638400.rank)
  reducesTo_S1638400_S_d0 : S1638400.ReducesTo [0] S_

variable [Facts]

def fn_part1 {F : FTy → Type} [FloatOps F] (main_arg3 : IVec S1638400 32) (main_arg4 : IVec S1638400 32) (main_v13 : IVec S_ 1) (main_v15 : IVec S1638400 1) (main_c_5 : IVec S_ 1) : IVec S_ 1 :=
  let main_v16 : IVec S_ 1 := (fun x v => Host.reduce IntOp.andi x v reducesTo_S1638400_S_d0 h_S_) main_v15 main_c_5
  let main_v17 : IVec S_ 1 := andi main_v13 main_v16
  let main_c_6 : IVec S_ 32 := constantI S_ 32 4096#32
  let main_v18 : IVec S1638400 32 := broadcastInDim S1638400 ![] bcast_S_S1638400 main_c_6
  let main_v19 : IVec S1638400 1 := cmpi .slt main_arg3 main_v18
  let main_c_7 : IVec S_ 1 := constantI S_ 1 1#1
  let main_v20 : IVec S_ 1 := (fun x v => Host.reduce IntOp.andi x v reducesTo_S1638400_S_d0 h_S_) main_v19 main_c_7
  let main_v21 : IVec S_ 1 := andi main_v17 main_v20
  let main_c_8 : IVec S_ 32 := constantI S_ 32 0#32
  let main_v22 : IVec S1638400 32 := broadcastInDim S1638400 ![] bcast_S_S1638400 main_c_8
  let main_v23 : IVec S1638400 1 := cmpi .sge main_arg4 main_v22
  let main_c_9 : IVec S_ 1 := constantI S_ 1 1#1
  let main_v24 : IVec S_ 1 := (fun x v => Host.reduce IntOp.andi x v reducesTo_S1638400_S_d0 h_S_) main_v23 main_c_9
  let main_v25 : IVec S_ 1 := andi main_v21 main_v24
  let main_c_10 : IVec S_ 32 := constantI S_ 32 4096#32
  let main_v26 : IVec S1638400 32 := broadcastInDim S1638400 ![] bcast_S_S1638400 main_c_10
  let main_v27 : IVec S1638400 1 := cmpi .slt main_arg4 main_v26
  let main_c_11 : IVec S_ 1 := constantI S_ 1 1#1
  let main_v28 : IVec S_ 1 := (fun x v => Host.reduce IntOp.andi x v reducesTo_S1638400_S_d0 h_S_) main_v27 main_c_11
  let main_v29 : IVec S_ 1 := andi main_v25 main_v28
  main_v29

def fn {F : FTy → Type} [FloatOps F] (main_arg0 : FVec F S128x4096 .f32) (main_arg1 : IVec S1638400 32) (main_arg2 : FVec F S4096 .f32) (main_arg3 : IVec S1638400 32) (main_arg4 : IVec S1638400 32) (main_arg5 : FVec F S4096 .f32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg5
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S1638400 32 := broadcastInDim S1638400 ![] bcast_S_S1638400 main_c_4
  let main_v15 : IVec S1638400 1 := cmpi .sge main_arg3 main_v14
  let main_c_5 : IVec S_ 1 := constantI S_ 1 1#1
  fn_part1 (F := F) main_arg3 main_arg4 main_v13 main_v15 main_c_5
-- ==== Kernel.lean ====
abbrev S128x4096 : Shape := ⟨2, ![128, 4096]⟩
abbrev S1638400 : Shape := ⟨1, ![1638400]⟩
abbrev S4096 : Shape := ⟨1, ![4096]⟩
abbrev S_ : Shape := ⟨0, ![]⟩
abbrev S1638400x1 : Shape := ⟨2, ![1638400, 1]⟩
abbrev S16777216 : Shape := ⟨1, ![16777216]⟩
abbrev S4096x4096 : Shape := ⟨2, ![4096, 4096]⟩
abbrev S1x4096 : Shape := ⟨2, ![1, 4096]⟩
abbrev S128x1024 : Shape := ⟨2, ![128, 1024]⟩
abbrev S2048x1024 : Shape := ⟨2, ![2048, 1024]⟩
abbrev S1x2048 : Shape := ⟨2, ![1, 2048]⟩
abbrev S128x2048 : Shape := ⟨2, ![128, 2048]⟩

abbrev nBuf : Space → Nat
  | .hbm => 36
  | .vmem => 8
  | .smem => 0
  | _ => 0

abbrev bufTy : (tb : Table) → Fin (tcTables nBuf tb) → BufTy
  | .hbm, ⟨0, _⟩ => ⟨S128x4096, .f32⟩
  | .hbm, ⟨1, _⟩ => ⟨S1638400, .i32⟩
  | .hbm, ⟨2, _⟩ => ⟨S4096, .f32⟩
  | .hbm, ⟨3, _⟩ => ⟨S1638400, .i32⟩
  | .hbm, ⟨4, _⟩ => ⟨S1638400, .i32⟩
  | .hbm, ⟨5, _⟩ => ⟨S4096, .f32⟩
  | .hbm, ⟨6, _⟩ => ⟨S1638400, .f32⟩
  | .hbm, ⟨7, _⟩ => ⟨S_, .i32⟩
  | .hbm, ⟨8, _⟩ => ⟨S1638400, .i32⟩
  | .hbm, ⟨9, _⟩ => ⟨S1638400, .i1⟩
  | .hbm, ⟨10, _⟩ => ⟨S_, .i32⟩
  | .hbm, ⟨11, _⟩ => ⟨S1638400, .i32⟩
  | .hbm, ⟨12, _⟩ => ⟨S1638400, .i32⟩
  | .hbm, ⟨13, _⟩ => ⟨S1638400, .i32⟩
  | .hbm, ⟨14, _⟩ => ⟨S1638400x1, .i32⟩
  | .hbm, ⟨15, _⟩ => ⟨S1638400, .f32⟩
  | .hbm, ⟨16, _⟩ => ⟨S1638400, .f32⟩
  | .hbm, ⟨17, _⟩ => ⟨S_, .i32⟩
  | .hbm, ⟨18, _⟩ => ⟨S1638400, .i32⟩
  | .hbm, ⟨19, _⟩ => ⟨S1638400, .i32⟩
  | .hbm, ⟨20, _⟩ => ⟨S1638400, .i32⟩
  | .hbm, ⟨21, _⟩ => ⟨S_, .f32⟩
  | .hbm, ⟨22, _⟩ => ⟨S16777216, .f32⟩
  | .hbm, ⟨23, _⟩ => ⟨S_, .i32⟩
  | .hbm, ⟨24, _⟩ => ⟨S1638400, .i32⟩
  | .hbm, ⟨25, _⟩ => ⟨S1638400, .i1⟩
  | .hbm, ⟨26, _⟩ => ⟨S_, .i32⟩
  | .hbm, ⟨27, _⟩ => ⟨S1638400, .i32⟩
  | .hbm, ⟨28, _⟩ => ⟨S1638400, .i32⟩
  | .hbm, ⟨29, _⟩ => ⟨S1638400, .i32⟩
  | .hbm, ⟨30, _⟩ => ⟨S1638400x1, .i32⟩
  | .hbm, ⟨31, _⟩ => ⟨S16777216, .f32⟩
  | .hbm, ⟨32, _⟩ => ⟨S4096x4096, .f32⟩
  | .hbm, ⟨33, _⟩ => ⟨S128x4096, .bf16⟩
  | .hbm, ⟨34, _⟩ => ⟨S1x4096, .f32⟩
  | .hbm, ⟨35, _⟩ => ⟨S128x4096, .f32⟩
  | .local _ .vmem, ⟨0, _⟩ => ⟨S128x1024, .bf16⟩
  | .local _ .vmem, ⟨1, _⟩ => ⟨S128x1024, .bf16⟩
  | .local _ .vmem, ⟨2, _⟩ => ⟨S2048x1024, .f32⟩
  | .local _ .vmem, ⟨3, _⟩ => ⟨S2048x1024, .f32⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S1638400 : S_.BroadcastsInDim S1638400 (![] : Fin 0 → Fin S1638400.rank)
  bcast_S1638400_S1638400x1_0 : S1638400.BroadcastsInDim S1638400x1 (![0] : Fin 1 → Fin S1638400x1.rank)
  bcast_S_S16777216 : S_.BroadcastsInDim S16777216 (![] : Fin 0 → Fin S16777216.rank)
  shapeCasts_S16777216_S4096x4096 : S16777216.ShapeCasts S4096x4096
  bitsLt_bf16_f32 : FTy.bits .bf16 < FTy.bits .f32
  shapeCasts_S4096_S1x4096 : S4096.ShapeCasts S1x4096
  inb_S128x2048_S128x2048_0_0 : ∀ a, (![0, 0] : Fin 2 → Nat) a + S128x2048.size a ≤ S128x2048.size a
  h_S128x2048 : 0 < S128x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  shapeCasts_S128x2048_S128x2048 : S128x2048.ShapeCasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  gather_S4096_S1638400x1_S1638400_n_0_n_n_0_1_1_wf : GatherDims.WF S4096 S1638400x1 S1638400 [] [0] [] [0] [] 1 ![1]
  scatter_S16777216_S1638400x1_S1638400_n_0_0_1_wf : ScatterDims.WF S16777216 S1638400x1 S1638400 [] [0] [0] 1
  dot_S128x1024_S2048x1024_S128x2048_1_1_0_0_n_n_wf : DotDims.WF S128x1024 S2048x1024 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x4096.size a
  hwx0_0 : ∀ i : grid0.Coords, EltTy.bits .bf16 = 32 ∨ (Rect.block (s := S128x4096) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .f32 = 32 ∨ (Rect.block (s := S4096x4096) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x4096.size a
  hwx0_3 : ∀ i : grid0.Coords, EltTy.bits .f32 = 32 ∨ (Rect.block (s := S128x4096) S128x2048.size (cc0_transform_3 i) (hinb0_3 i)).WholeWords (EltTy.packing .f32)

variable [Facts₀]

def gather_S4096_S1638400x1_S1638400_n_0_n_n_0_1_1 : GatherDims S4096 S1638400x1 S1638400 where
  offsetDims := []
  collapsedSliceDims := [0]
  operandBatchingDims := []
  startIndicesBatchingDims := []
  startIndexMap := [0]
  indexVectorDim := 1
  sliceSizes := ![1]
  wf := gather_S4096_S1638400x1_S1638400_n_0_n_n_0_1_1_wf
def scatter_S16777216_S1638400x1_S1638400_n_0_0_1 : ScatterDims S16777216 S1638400x1 S1638400 where
  updateWindowDims := []
  insertedWindowDims := [0]
  scatterDimsToOperandDims := [0]
  indexVectorDim := 1
  wf := scatter_S16777216_S1638400x1_S1638400_n_0_0_1_wf
def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf

abbrev win0_0 : Pipeline.Window sig grid0 :=
  Pipeline.Window.ofSpec (Memref.whole main_v21) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x4096 : Shape := ⟨2, ![128, 4096]⟩
abbrev S1638400 : Shape := ⟨1, ![1638400]⟩
abbrev S4096 : Shape := ⟨1, ![4096]⟩
abbrev S_ : Shape := ⟨0, ![]⟩
abbrev S1638400x1 : Shape := ⟨2, ![1638400, 1]⟩
abbrev S4096x128 : Shape := ⟨2, ![4096, 128]⟩
abbrev S1638400x128 : Shape := ⟨2, ![1638400, 128]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S1638400, .i32⟩
  | .hbm, ⟨2, _⟩ => ⟨S4096, .f32⟩
  | .hbm, ⟨3, _⟩ => ⟨S1638400, .i32⟩
  | .hbm, ⟨4, _⟩ => ⟨S1638400, .i32⟩
  | .hbm, ⟨5, _⟩ => ⟨S4096, .f32⟩
  | .hbm, ⟨6, _⟩ => ⟨S1638400, .f32⟩
  | .hbm, ⟨7, _⟩ => ⟨S_, .i32⟩
  | .hbm, ⟨8, _⟩ => ⟨S1638400, .i32⟩
  | .hbm, ⟨9, _⟩ => ⟨S1638400, .i1⟩
  | .hbm, ⟨10, _⟩ => ⟨S_, .i32⟩
  | .hbm, ⟨11, _⟩ => ⟨S1638400, .i32⟩
  | .hbm, ⟨12, _⟩ => ⟨S1638400, .i32⟩
  | .hbm, ⟨13, _⟩ => ⟨S1638400, .i32⟩
  | .hbm, ⟨14, _⟩ => ⟨S1638400x1, .i32⟩
  | .hbm, ⟨15, _⟩ => ⟨S1638400, .f32⟩
  | .hbm, ⟨16, _⟩ => ⟨S1638400, .f32⟩
  | .hbm, ⟨17, _⟩ => ⟨S4096x128, .f32⟩
  | .hbm, ⟨18, _⟩ => ⟨S_, .i32⟩
  | .hbm, ⟨19, _⟩ => ⟨S1638400, .i32⟩
  | .hbm, ⟨20, _⟩ => ⟨S1638400, .i1⟩
  | .hbm, ⟨21, _⟩ => ⟨S_, .i32⟩
  | .hbm, ⟨22, _⟩ => ⟨S1638400, .i32⟩
  | .hbm, ⟨23, _⟩ => ⟨S1638400, .i32⟩
  | .hbm, ⟨24, _⟩ => ⟨S1638400, .i32⟩
  | .hbm, ⟨25, _⟩ => ⟨S1638400x1, .i32⟩
  | .hbm, ⟨26, _⟩ => ⟨S1638400x128, .f32⟩
  | .hbm, ⟨27, _⟩ => ⟨S1638400x1, .f32⟩
  | .hbm, ⟨28, _⟩ => ⟨S1638400x128, .f32⟩
  | .hbm, ⟨29, _⟩ => ⟨S1638400x128, .f32⟩
  | .hbm, ⟨30, _⟩ => ⟨S_, .f32⟩
  | .hbm, ⟨31, _⟩ => ⟨S4096x128, .f32⟩
  | .hbm, ⟨32, _⟩ => ⟨S1638400x1, .i32⟩
  | .hbm, ⟨33, _⟩ => ⟨S4096x128, .f32⟩
  | .hbm, ⟨34, _⟩ => ⟨S128x4096, .f32⟩
  | .hbm, ⟨35, _⟩ => ⟨S1x4096, .f32⟩
  | .hbm, ⟨36, _⟩ => ⟨S128x4096, .f32⟩
  | .hbm, ⟨37, _⟩ => ⟨S128x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S1638400 : S_.BroadcastsInDim S1638400 (![] : Fin 0 → Fin S1638400.rank)
  bcast_S1638400_S1638400x1_0 : S1638400.BroadcastsInDim S1638400x1 (![0] : Fin 1 → Fin S1638400x1.rank)
  transposes_S128x4096_S4096x128_1_0 : S128x4096.Transposes [1, 0] S4096x128
  bcast_S1638400x1_S1638400x128_0_1 : S1638400x1.BroadcastsInDim S1638400x128 (![0, 1] : Fin 2 → Fin S1638400x128.rank)
  bcast_S_S4096x128 : S_.BroadcastsInDim S4096x128 (![] : Fin 0 → Fin S4096x128.rank)
  transposes_S4096x128_S128x4096_1_0 : S4096x128.Transposes [1, 0] S128x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  gather_S4096_S1638400x1_S1638400_n_0_n_n_0_1_1_wf : GatherDims.WF S4096 S1638400x1 S1638400 [] [0] [] [0] [] 1 ![1]
  gather_S4096x128_S1638400x1_S1638400x128_1_0_n_n_0_1_1128_wf : GatherDims.WF S4096x128 S1638400x1 S1638400x128 [1] [0] [] [0] [] 1 ![1, 128]
  scatter_S4096x128_S1638400x1_S1638400x128_1_0_0_1_wf : ScatterDims.WF S4096x128 S1638400x1 S1638400x128 [1] [0] [0] 1

variable [Facts₀]

def gather_S4096_S1638400x1_S1638400_n_0_n_n_0_1_1 : GatherDims S4096 S1638400x1 S1638400 where
  offsetDims := []
  collapsedSliceDims := [0]
  operandBatchingDims := []
  startIndicesBatchingDims := []
  startIndexMap := [0]
  indexVectorDim := 1
  sliceSizes := ![1]
  wf := gather_S4096_S1638400x1_S1638400_n_0_n_n_0_1_1_wf
def gather_S4096x128_S1638400x1_S1638400x128_1_0_n_n_0_1_1128 : GatherDims S4096x128 S1638400x1 S1638400x128 where
  offsetDims := [1]
  collapsedSliceDims := [0]
  operandBatchingDims := []
  startIndicesBatchingDims := []
  startIndexMap := [0]
  indexVectorDim := 1
  sliceSizes := ![1, 128]
  wf := gather_S4096x128_S1638400x1_S1638400x128_1_0_n_n_0_1_1128_wf
def scatter_S4096x128_S1638400x1_S1638400x128_1_0_0_1 : ScatterDims S4096x128 S1638400x1 S1638400x128 where
  updateWindowDims := [1]
  insertedWindowDims := [0]
  scatterDimsToOperandDims := [0]
  indexVectorDim := 1
  wf := scatter_S4096x128_S1638400x1_S1638400x128_1_0_0_1_wf

class Facts : Prop extends Facts₀ where

variable [Facts]
-- ==== Proof.KernelFold.lean ====
/-
  The kernel's result array at (b, n), read off its blockwise run.

  The grid is 2 × 4: output block j ∈ {0, 1} holds columns 2048 j … 2048 j + 2047 of the result and is visited at the
  four consecutive points 4 j + k, k = 0 … 3.  At k = 0 the block is zeroed; at every k the product of the activations'
  columns 1024 k … 1024 k + 1023 against the same columns of the weights' rows 2048 j … 2048 j + 2047 is added; at k = 3
  the bias row is added.  So the block ends at the sum of four quarter-products plus the bias, and the four quarters of
  the 4096 columns make the whole contraction: result(b, n) = Σ_{j < 4096} x(b, j) · W(n, j) + bias(n).  Addition of
  extended reals is commutative and associative, so no finiteness enters here.
-/
import proofs.«412043_j6554120093747_3_alg».proof.Proof.Gen.KernelIdeal.Value
import Idealize.ShloMosaic.Lib.ValueIdx
import Idealize.ShloMosaic.Lib.ValueLayout
import Idealize.ShloMosaic.PureOps.Ideal.Laws

noncomputable section

namespace Cert.KernelIdeal.Fold

open Cert.KernelIdeal Cert.KernelIdeal.Gen Idealize.ShloMosaic Idealize.ShloMosaic.TcCoe Idealize.SL.Sem
open Idealize.ShloMosaic.ValueIdx

/-! ## The contraction's operand indices -/

theorem lhs_dot_0 (j : S128x2048.Idx) (k : dot_S128x1024_S2048x1024_S128x2048_1_1_0_0_n_n.contr.Idx) :
    (dot_S128x1024_S2048x1024_S128x2048_1_1_0_0_n_n.lhsIdx j k 0 : ℕ) = j 0 := by
  simp [DotDims.lhsIdx, dot_S128x1024_S2048x1024_S128x2048_1_1_0_0_n_n]; rfl
theorem lhs_dot_1 (j : S128x2048.Idx) (k : dot_S128x1024_S2048x1024_S128x2048_1_1_0_0_n_n.contr.Idx) :
    (dot_S128x1024_S2048x1024_S128x2048_1_1_0_0_n_n.lhsIdx j k 1 : ℕ) = k ⟨0, by decide⟩ := by
  simp [DotDims.lhsIdx, dot_S128x1024_S2048x1024_S128x2048_1_1_0_0_n_n]; rfl
theorem rhs_dot_0 (j : S128x2048.Idx) (k : dot_S128x1024_S2048x1024_S128x2048_1_1_0_0_n_n.contr.Idx) :
    (dot_S128x1024_S2048x1024_S128x2048_1_1_0_0_n_n.rhsIdx j k 0 : ℕ) = j 1 := by
  simp [DotDims.rhsIdx, dot_S128x1024_S2048x1024_S128x2048_1_1_0_0_n_n]; rfl
theorem rhs_dot_1 (j : S128x2048.Idx) (k : dot_S128x1024_S2048x1024_S128x2048_1_1_0_0_n_n.contr.Idx) :
    (dot_S128x1024_S2048x1024_S128x2048_1_1_0_0_n_n.rhsIdx j k 1 : ℕ) = k ⟨0, by decide⟩ := by
  simp [DotDims.rhsIdx, dot_S128x1024_S2048x1024_S128x2048_1_1_0_0_n_n]; rfl

/-! ## The body's arithmetic at an index -/

/-- The zero splat reads the extended real `0` everywhere. -/
theorem pay1_apply (p : Fin 128) (q : Fin 2048) : ((k0_pay1 (F := Ideal)) (ix2 p q) : EReal) = 0 := by
  unfold k0_pay1
  show Ideal.ofBits .f32 0x00000000#32 = 0
  exact Ideal.ofBits_zero_f32

/-- The accumulation step at `(p, q)`: the accumulator there plus the row-by-row product over the block's 1024 columns. -/
theorem pay2_apply (x1 : Vec Ideal S2048x1024 .f32) (x0 : Vec Ideal S128x1024 .bf16) (acc : Vec Ideal S128x2048 .f32)
    (p : Fin 128) (q : Fin 2048) :
    (k0_pay2 (F := Ideal) x1 x0 acc (ix2 p q) : EReal)
      = acc (ix2 p q) + ∑ mm : Fin 1024, x0 (ix2 p mm) * x1 (ix2 q mm) := by
  unfold k0_pay2
  rw [addf_apply, shapeCast_self, shapeCast_self, shapeCast_self]
  congr 1
  show FloatOps.matmul dot_S128x1024_S2048x1024_S128x2048_1_1_0_0_n_n none x0 (truncf .bf16 x1 bitsLt_bf16_f32)
      (constant (F := Ideal) S128x2048 .f32 0x00000000#32) (ix2 p q) = _
  rw [Ideal.matmul_constant_zero_apply,
    ← Equiv.sum_comp (contrEquiv1 dot_S128x1024_S2048x1024_S128x2048_1_1_0_0_n_n 1024 rfl rfl).symm]
  refine Finset.sum_congr rfl fun mm _ => ?_
  rw [truncf_apply]
  have hk : (((contrEquiv1 dot_S128x1024_S2048x1024_S128x2048_1_1_0_0_n_n 1024 rfl rfl).symm mm) ⟨0, by decide⟩ : ℕ) = mm.val :=
    contrEquiv1_symm_val dot_S128x1024_S2048x1024_S128x2048_1_1_0_0_n_n 1024 rfl rfl mm
  congr 2
  · funext a
    apply Fin.ext
    match a with
    | ⟨0, _⟩ => exact lhs_dot_0 _ _
    | ⟨1, _⟩ => exact (lhs_dot_1 _ _).trans hk
  · funext a
    apply Fin.ext
    match a with
    | ⟨0, _⟩ => exact rhs_dot_0 _ _
    | ⟨1, _⟩ => exact (rhs_dot_1 _ _).trans hk

/-- The epilogue at `(p, q)`: the accumulator there plus the bias row at `q`. -/
theorem pay3_apply (acc : Vec Ideal S128x2048 .f32) (x2 : Vec Ideal S1x2048 .f32) (p : Fin 128) (q : Fin 2048) :
    (k0_pay3 (F := Ideal) acc x2 (ix2 p q) : EReal) = acc (ix2 p q) + x2 (ix2 (0 : Fin 1) q) := by
  unfold k0_pay3
  rw [addf_apply, shapeCast_self, shapeCast_self, shapeCast_self, broadcastTo_1b_ab_apply]

variable (m : (ℓ : Loc nD τ sig) → Buf (Elt Ideal) ℓ)

/-- The activations as the region finds them. -/
abbrev xarr (c : Dev nD) : FVec Ideal S128x4096 .bf16 := V m c main_v21
/-- The dense weight matrix as the region finds it. -/
abbrev warr (c : Dev nD) : FVec Ideal S4096x4096 .f32 := V m c main_v20
/-- The bias row as the region finds it. -/
abbrev barr (c : Dev nD) : FVec Ideal S1x4096 .f32 := V m c main_v22

/-! ## The input blocks of a point, read off the arrays -/

/-- The printed index maps of the three inputs, decided once over the grid: at point `t = 4·j + k` the activations'
    block is `(0, k)`, the weights' `(j, k)`, the bias's `(0, j)`. -/
theorem idx_in : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = 0 ∧ win0_2.index t (1 : Fin 2) = t.val / 4 :=
  (by decide +kernel : ∀ t : Fin grid0.N, _)

/-- The activations' block at point `t`. -/
abbrev xblk (c : Dev nD) (t : Fin cfg0.N) : Vec Ideal S128x1024 .bf16 := iblk m c 0 t
/-- The weights' block at point `t`. -/
abbrev wblk (c : Dev nD) (t : Fin cfg0.N) : Vec Ideal S2048x1024 .f32 := iblk m c 1 t
/-- The bias's block at point `t`. -/
abbrev bblk (c : Dev nD) (t : Fin cfg0.N) : Vec Ideal S1x2048 .f32 := iblk m c 2 t

/-- A block of the activations at point `t`, of any array: row `p`, column `1024·(t % 4) + mm`. -/
theorem xblk_read (t : Fin cfg0.N) (p : Fin 128) (mm : Fin 1024) (j : Fin 4096)
    (hj : j.val = 1024 * (t.val % 4) + mm.val) (A : FVec Ideal S128x4096 .bf16) :
    (((cfg0.win 0).blk t).view.read (Elt Ideal) A (ix2 p mm) : EReal) = A (ix2 p j) := by
  obtain ⟨e0, e1, -⟩ := idx_in t
  have hb0 : (((cfg0.win 0).blk t).view.emb (ix2 p mm) 0).val = win0_0.index t (0 : Fin 2) * 128 + 1 * p.val := rfl
  have hb1 : (((cfg0.win 0).blk t).view.emb (ix2 p mm) 1).val = win0_0.index t (1 : Fin 2) * 1024 + 1 * mm.val := rfl
  rw [View.read_apply]
  refine congrArg A (funext fun a => Fin.ext ?_)
  match a with
  | ⟨0, _⟩ => exact hb0.trans (by rw [e0]; show 0 * 128 + 1 * p.val = p.val; omega)
  | ⟨1, _⟩ => exact hb1.trans (by rw [e1, hj]; show (t.val % 4) * 1024 + 1 * mm.val = 1024 * (t.val % 4) + mm.val; omega)

/-- The activations' block at `t` reads row `p`, column `1024·(t % 4) + mm` of the activations. -/
theorem xblk_apply (c : Dev nD) (t : Fin cfg0.N) (p : Fin 128) (mm : Fin 1024) (j : Fin 4096)
    (hj : j.val = 1024 * (t.val % 4) + mm.val) :
    (xblk m c t (ix2 p mm) : EReal) = xarr m c (ix2 p j) :=
  xblk_read t p mm j hj (xarr m c)

/-- A block of the weights at point `t`, of any array: row `2048·(t / 4) + q`, column `1024·(t % 4) + mm`. -/
theorem wblk_read (t : Fin cfg0.N) (q : Fin 2048) (mm : Fin 1024) (n j : Fin 4096)
    (hn : n.val = 2048 * (t.val / 4) + q.val) (hj : j.val = 1024 * (t.val % 4) + mm.val) (A : FVec Ideal S4096x4096 .f32) :
    (((cfg0.win 1).blk t).view.read (Elt Ideal) A (ix2 q mm) : EReal) = A (ix2 n j) := by
  obtain ⟨-, -, e0, e1, -⟩ := idx_in t
  have hb0 : (((cfg0.win 1).blk t).view.emb (ix2 q mm) 0).val = win0_1.index t (0 : Fin 2) * 2048 + 1 * q.val := rfl
  have hb1 : (((cfg0.win 1).blk t).view.emb (ix2 q mm) 1).val = win0_1.index t (1 : Fin 2) * 1024 + 1 * mm.val := rfl
  rw [View.read_apply]
  refine congrArg A (funext fun a => Fin.ext ?_)
  match a with
  | ⟨0, _⟩ => exact hb0.trans (by rw [e0, hn]; show (t.val / 4) * 2048 + 1 * q.val = 2048 * (t.val / 4) + q.val; omega)
  | ⟨1, _⟩ => exact hb1.trans (by rw [e1, hj]; show (t.val % 4) * 1024 + 1 * mm.val = 1024 * (t.val % 4) + mm.val; omega)

/-- The weights' block at `t` reads row `2048·(t / 4) + q`, column `1024·(t % 4) + mm` of the weights. -/
theorem wblk_apply (c : Dev nD) (t : Fin cfg0.N) (q : Fin 2048) (mm : Fin 1024) (n j : Fin 4096)
    (hn : n.val = 2048 * (t.val / 4) + q.val) (hj : j.val = 1024 * (t.val % 4) + mm.val) :
    (wblk m c t (ix2 q mm) : EReal) = warr m c (ix2 n j) :=
  wblk_read t q mm n j hn hj (warr m c)

/-- A block of the bias row at point `t`, of any array: column `2048·(t / 4) + q`. -/
theorem bblk_read (t : Fin cfg0.N) (q : Fin 2048) (n : Fin 4096)
    (hn : n.val = 2048 * (t.val / 4) + q.val) (A : FVec Ideal S1x4096 .f32) :
    (((cfg0.win 2).blk t).view.read (Elt Ideal) A (ix2 (0 : Fin 1) q) : EReal) = A (ix2 (0 : Fin 1) n) := by
  obtain ⟨-, -, -, -, e0, e1⟩ := idx_in t
  have hb0 : (((cfg0.win 2).blk t).view.emb (ix2 (0 : Fin 1) q) 0).val = win0_2.index t (0 : Fin 2) * 1 + 1 * (0 : Fin 1).val := rfl
  have hb1 : (((cfg0.win 2).blk t).view.emb (ix2 (0 : Fin 1) q) 1).val = win0_2.index t (1 : Fin 2) * 2048 + 1 * q.val := rfl
  rw [View.read_apply]
  refine congrArg A (funext fun a => Fin.ext ?_)
  match a with
  | ⟨0, _⟩ => exact hb0.trans (by rw [e0]; rfl)
  | ⟨1, _⟩ => exact hb1.trans (by rw [e1, hn]; show (t.val / 4) * 2048 + 1 * q.val = 2048 * (t.val / 4) + q.val; omega)

/-- The bias's block at `t` reads column `2048·(t / 4) + q` of the bias row. -/
theorem bblk_apply (c : Dev nD) (t : Fin cfg0.N) (q : Fin 2048) (n : Fin 4096)
    (hn : n.val = 2048 * (t.val / 4) + q.val) :
    (bblk m c t (ix2 (0 : Fin 1) q) : EReal) = barr m c (ix2 (0 : Fin 1) n) :=
  bblk_read t q n hn (barr m c)

/-! ## The four quarters of the contraction -/

/-- Column `mm` of quarter `k` of the 4096 contraction columns. -/
abbrev quarter (k : Fin 4) (mm : Fin 1024) : Fin 4096 :=
  ⟨1024 * k.val + mm.val, by have := k.isLt; have := mm.isLt; omega⟩

/-- A sum over the 4096 columns is the sum over the four quarters of the sums over each quarter's 1024 columns. -/
theorem sum_quarters {M : Type*} [AddCommMonoid M] (f : Fin 4096 → M) :
    ∑ j : Fin 4096, f j = ∑ k : Fin 4, ∑ mm : Fin 1024, f (quarter k mm) := by
  have h1 : ∑ j : Fin 4096, f j = ∑ x : Fin 4 × Fin 1024, f (finProdFinEquiv x) :=
    (Equiv.sum_comp (finProdFinEquiv (m := 4) (n := 1024)) f).symm
  rw [h1, Fintype.sum_prod_type]
  refine Finset.sum_congr rfl fun k _ => Finset.sum_congr rfl fun mm _ => congrArg f (Fin.ext ?_)
  show mm.val + 1024 * k.val = 1024 * k.val + mm.val
  omega

/-- The product a point adds at `(p, q)`, read off the arrays: quarter `t % 4` of row `p` of the activations against
    row `2048·(t / 4) + q` of the weights. -/
theorem addend_apply (c : Dev nD) (t : Fin cfg0.N) (p : Fin 128) (q : Fin 2048) (n : Fin 4096) (k : Fin 4)
    (hn : n.val = 2048 * (t.val / 4) + q.val) (hk : t.val % 4 = k.val) :
    ∑ mm : Fin 1024, (xblk m c t (ix2 p mm) : EReal) * wblk m c t (ix2 q mm)
      = ∑ mm : Fin 1024, xarr m c (ix2 p (quarter k mm)) * warr m c (ix2 n (quarter k mm)) := by
  refine Finset.sum_congr rfl fun mm _ => ?_
  have hq : (quarter k mm).val = 1024 * (t.val % 4) + mm.val := by rw [hk]
  rw [xblk_apply m c t p mm (quarter k mm) hq, wblk_apply m c t q mm n (quarter k mm) hn hq]

/-! ## The steps of a run -/

/-- At a middle point of a run the step accumulates the point's product. -/
theorem step3_mid (c : Dev nD) (n : ℕ) (h : n < cfg0.N) (acc : Vec Ideal S128x2048 .f32)
    (h0 : ¬n % 4 = 0) (h3 : ¬n % 4 = 3) :
    Value.step3 m c n h acc = k0_pay2 (wblk m c ⟨n, h⟩) (xblk m c ⟨n, h⟩) acc := by
  unfold Value.step3
  rw [if_pos ⟨h0, h3⟩]

/-- At the last point of a run the step accumulates the point's product and then adds the bias row. -/
theorem step3_last (c : Dev nD) (n : ℕ) (h : n < cfg0.N) (acc : Vec Ideal S128x2048 .f32) (h3 : n % 4 = 3) :
    Value.step3 m c n h acc = k0_pay3 (k0_pay2 (wblk m c ⟨n, h⟩) (xblk m c ⟨n, h⟩) acc) (bblk m c ⟨n, h⟩) := by
  unfold Value.step3
  rw [if_neg (by omega), if_pos ⟨by omega, h3⟩]

/-- The fold of run `r` at `(p, q)`: the whole product of row `p` of the activations against row `n = 2048·r + q` of the
    weights, plus the bias at `n`. -/
theorem fold_apply (c : Dev nD) (r : ℕ) (h : 4 * r + 3 < cfg0.N) (p : Fin 128) (q : Fin 2048) (n : Fin 4096)
    (hn : n.val = 2048 * r + q.val) :
    (Pipeline.accAt (Value.reset3 m c) (Value.step3 m c) (4 * r) 3 h (ix2 p q) : EReal)
      = (∑ j : Fin 4096, xarr m c (ix2 p j) * warr m c (ix2 n j)) + barr m c (ix2 0 n) := by
  have hN : cfg0.N = 8 := N_0
  have h3 : 4 * r + (2 + 1) < cfg0.N := h
  have h2 : 4 * r + (1 + 1) < cfg0.N := by omega
  have h1 : 4 * r + (0 + 1) < cfg0.N := by omega
  have h0 : 4 * r < cfg0.N := by omega
  show Value.step3 m c (4 * r + (2 + 1)) h3 (Value.step3 m c (4 * r + (1 + 1)) h2
    (Value.step3 m c (4 * r + (0 + 1)) h1 (Value.reset3 m c (4 * r) h0))) (ix2 p q) = _
  rw [step3_last m c (4 * r + (2 + 1)) h3 _ (by omega), step3_mid m c (4 * r + (1 + 1)) h2 _ (by omega) (by omega),
    step3_mid m c (4 * r + (0 + 1)) h1 _ (by omega) (by omega),
    show Value.reset3 m c (4 * r) h0 = k0_pay2 (wblk m c ⟨4 * r, h0⟩) (xblk m c ⟨4 * r, h0⟩) (k0_pay1 (F := Ideal)) from rfl]
  rw [pay3_apply, pay2_apply, pay2_apply, pay2_apply, pay2_apply, pay1_apply, zero_add]
  rw [addend_apply m c ⟨4 * r, h0⟩ p q n 0 (by show n.val = 2048 * (4 * r / 4) + q.val; omega) (by show 4 * r % 4 = 0; omega),
    addend_apply m c ⟨4 * r + (0 + 1), h1⟩ p q n 1 (by show n.val = 2048 * ((4 * r + (0 + 1)) / 4) + q.val; omega)
      (by show (4 * r + (0 + 1)) % 4 = 1; omega),
    addend_apply m c ⟨4 * r + (1 + 1), h2⟩ p q n 2 (by show n.val = 2048 * ((4 * r + (1 + 1)) / 4) + q.val; omega)
      (by show (4 * r + (1 + 1)) % 4 = 2; omega),
    addend_apply m c ⟨4 * r + (2 + 1), h3⟩ p q n 3 (by show n.val = 2048 * ((4 * r + (2 + 1)) / 4) + q.val; omega)
      (by show (4 * r + (2 + 1)) % 4 = 3; omega),
    bblk_apply m c ⟨4 * r + (2 + 1), h3⟩ q n (by show n.val = 2048 * ((4 * r + (2 + 1)) / 4) + q.val; omega)]
  rw [sum_quarters (fun j => (xarr m c (ix2 p j) : EReal) * warr m c (ix2 n j)), Fin.sum_univ_four]

/-- THE RESULT AT (b, n): row b of the activations against row n of the weights over all 4096 columns, plus the
    bias at n. -/
theorem G3_apply (c : Dev nD) (b : Fin 128) (n : Fin 4096) :
    (Value.G3 (F := Ideal) m c (ix2 b n) : EReal)
      = (∑ j : Fin 4096, xarr m c (ix2 b j) * warr m c (ix2 n j)) + barr m c (ix2 0 n) := by
  have hN : cfg0.N = 8 := N_0
  have hb : b.val < 128 := b.isLt
  have hn : n.val < 4096 := n.isLt
  have hr : Value.run3Of (ix2 b n) = n.val / 2048 := by
    show 2 * (b.val / 128 - 0) + 1 * (n.val / 2048 - 0) = _
    have : b.val / 128 = 0 := by omega
    omega
  have hl : Value.loc3Of (ix2 b n) = ix2 b (⟨n.val % 2048, Nat.mod_lt _ (by decide)⟩ : Fin 2048) := by
    funext a
    apply Fin.ext
    match a with
    | ⟨0, _⟩ => show b.val % 128 = b.val; omega
    | ⟨1, _⟩ => rfl
  have e : ∀ (b' : ℕ) (h : b' + 3 < cfg0.N) (r : ℕ) (h' : 4 * r + 3 < cfg0.N), b' = 4 * r →
      Pipeline.accAt (Value.reset3 m c) (Value.step3 m c) b' 3 h = Pipeline.accAt (Value.reset3 m c) (Value.step3 m c) (4 * r) 3 h' := by
    intro b' h r h' hb'; subst hb'; rfl
  have hlt : 4 * (n.val / 2048) + 3 < cfg0.N := by rw [hN]; omega
  unfold Value.G3
  rw [dif_pos (by rw [hr]; exact hlt), hl, e _ _ (n.val / 2048) hlt (by rw [hr])]
  exact fold_apply m c (n.val / 2048) hlt b ⟨n.val % 2048, Nat.mod_lt _ (by decide)⟩ n
    (by show n.val = 2048 * (n.val / 2048) + n.val % 2048; omega)

end Cert.KernelIdeal.Fold

end
-- ==== Proof.KernelHost.lean ====
/-
  What the kernel's region finds in its three input arrays, as functions of the program's arguments.

  Before the region the program dequantises the nonzeros (integer value times the scale of its row, the row id read as
  numpy reads an index: a negative one shifted up by 4096, then clamped by the gather), computes each nonzero's flat
  position row · 4096 + col in 32-bit words (a negative result shifted up by 4096 · 4096), accumulates the nonzeros at
  those positions over an array of 4096 · 4096 zeros and lays it out as 4096 rows: the dense matrix.  The activations
  reach the region through a change of float format, which at the ideal values is the identity, and the bias as a
  [1, 4096] row.
-/
import proofs.«412043_j6554120093747_3_alg».proof.Proof.Gen.KernelIdeal.Value
import Idealize.ShloMosaic.Lib.ValueIdx
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.ValueIdx Idealize.ShloMosaic.StableHlo

/-- The row ids as a start-index column, a negative id shifted up by the number of rows. -/
def rowColumn (row : IVec S1638400 32) : IVec S1638400x1 32 :=
  broadcastInDim S1638400x1 ![0] bcast_S1638400_S1638400x1_0
    (select (cmpi .slt row (broadcastInDim S1638400 ![] bcast_S_S1638400 (constantI S_ 32 0#32)))
      (addi row (broadcastInDim S1638400 ![] bcast_S_S1638400 (constantI S_ 32 4096#32))) row)

/-- The dequantised nonzeros: the integer value times its row's scale. -/
def nonzeros (wv : IVec S1638400 32) (sc : FVec Ideal S4096 .f32) (row : IVec S1638400 32) : FVec Ideal S1638400 .f32 :=
  mulf (sitofp .f32 wv) (Host.gather gather_S4096_S1638400x1_S1638400_n_0_n_n_0_1_1 sc (rowColumn row))

/-- The flat position row · 4096 + col of each nonzero, in 32-bit words. -/
def flatPos (row col : IVec S1638400 32) : IVec S1638400 32 :=
  addi (muli row (broadcastInDim S1638400 ![] bcast_S_S1638400 (constantI S_ 32 4096#32))) col

/-- The flat positions as a scatter-index column, a negative position shifted up by the array's length. -/
def flatColumn (row col : IVec S1638400 32) : IVec S1638400x1 32 :=
  broadcastInDim S1638400x1 ![0] bcast_S1638400_S1638400x1_0
    (select (cmpi .slt (flatPos row col) (broadcastInDim S1638400 ![] bcast_S_S1638400 (constantI S_ 32 0#32)))
      (addi (flatPos row col) (broadcastInDim S1638400 ![] bcast_S_S1638400 (constantI S_ 32 16777216#32))) (flatPos row col))

/-- The dense weight matrix: the nonzeros accumulated at their flat positions over zeros, laid out in rows. -/
def dense (wv : IVec S1638400 32) (sc : FVec Ideal S4096 .f32) (row col : IVec S1638400 32) : FVec Ideal S4096x4096 .f32 :=
  shapeCast S4096x4096
    (Host.scatterAdd scatter_S16777216_S1638400x1_S1638400_n_0_0_1
      (broadcastInDim S16777216 ![] bcast_S_S16777216 (constant (F := Ideal) S_ .f32 0x00000000#32))
      (flatColumn row col) (nonzeros wv sc row))
    shapeCasts_S16777216_S4096x4096

variable (m : (ℓ : Loc nD τ sig) → Buf (Elt Ideal) ℓ)

set_option maxHeartbeats 1600000 in
theorem weights_eq (c : Dev nD) :
    (V m c main_v20 : S4096x4096.Idx → EReal)
      = dense (m ((c : Thread nD τ).loc main_arg1)) (m ((c : Thread nD τ).loc main_arg2))
          (m ((c : Thread nD τ).loc main_arg3)) (m ((c : Thread nD τ).loc main_arg4)) := by
  dsimp only [V, hostOps0]
  after_results
  rfl

theorem activations_eq (c : Dev nD) :
    (V m c main_v21 : S128x4096.Idx → EReal) = m ((c : Thread nD τ).loc main_arg0) := by
  dsimp only [V, hostOps0]
  after_results
  rfl

theorem bias_eq (c : Dev nD) :
    (V m c main_v22 : S1x4096.Idx → EReal)
      = shapeCast S1x4096 (m ((c : Thread nD τ).loc main_arg5)) shapeCasts_S4096_S1x4096 := by
  dsimp only [V, hostOps0]
  after_results
  rfl

end Cert.KernelIdeal.HostValue

end
-- ==== Proof.LibIndexedRows.lean ====
/-
  Indexed rows: the host's take-shaped gather of whole rows and its accumulating scatters, read at an index.

  jnp's `table[idx]` over a rank-2 table `[N, C]` with an index column `[n, 1]` gathers ROW `idx[p]` (read signed,
  clamped into the table) into row `p` of the result; `zeros.at[idx].add(u)` over a flat operand `[N]`, and
  `segment_sum` of rows `[n, C]` into `[N, C]`, add update `k` (row `k`) at position (row) `idx[k]` read signed and
  NOT clamped, an update that falls outside being dropped.  These lemmas say where each update lands and what each
  gathered element reads, over literal shapes, from the printed dimension numbers alone; and, at the ideal values, what
  each accumulating scatter holds at an index: the operand's element plus the sum of the updates whose index names it.
-/
import Idealize.ShloMosaic.Lib.ValueIdx
import Idealize.ShloMosaic.Lib.StableHlo.Predicate

noncomputable section

namespace IndexedRows

open Idealize.ShloMosaic Idealize.ShloMosaic.ValueIdx Idealize.ShloMosaic.StableHlo.Predicate

/-- An update lands at operand index `r` exactly when, on every operand axis, its start plus its window coordinate is
    `r`'s coordinate there: the sum is then inside the operand on every axis, and otherwise the update is dropped. -/
theorem resultIdx?_eq_some_iff {s si u : Shape} {w : Nat} (d : ScatterDims s si u) (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro e a
      have e' := congrFun (Option.some.inj e) a
      have hv : (d.start j idx a + (d.window j a : Int)).toNat = (r a).val := congrArg Fin.val e'
      have := (h a).1
      omega
    · intro hall
      congr 1
      funext a
      apply Fin.ext
      show (d.start j idx a + (d.window j a : Int)).toNat = (r a).val
      have := hall a
      omega
  · next h =>
    constructor
    · intro e; cases e
    · intro hall
      exfalso
      apply h
      intro a
      have := hall a
      have := (r a).isLt
      omega

/-- A flat accumulating scatter: update `k` lands on operand position `i` exactly when the signed value of the
    `k`-th scatter index is `i`. -/
theorem scatter_flat_lands {N n w : Nat} (d : ScatterDims ⟨1, ![N]⟩ ⟨2, ![n, 1]⟩ ⟨1, ![n]⟩)
    (huw : d.updateWindowDims = []) (hins : d.insertedWindowDims = [0])
    (hsd : d.scatterDimsToOperandDims = [0]) (hivd : d.indexVectorDim = 1)
    (idx : IVec ⟨2, ![n, 1]⟩ w) (k : Fin n) (i : Fin N) :
    d.resultIdx? (ix1 k) idx = some (ix1 i) ↔ (idx (ixP k)).toInt = (i.val : Int) := by
  obtain ⟨uw, ins, sd, ivd, wf⟩ := d
  dsimp only at huw hins hsd hivd
  subst huw hins hsd hivd
  rw [resultIdx?_eq_some_iff]
  -- axis 0 is the one operand axis: an inserted window axis (window coordinate 0) whose start is the signed index
  have hwin : (ScatterDims.mk (s := ⟨1, ![N]⟩) (si := ⟨2, ![n, 1]⟩) (u := ⟨1, ![n]⟩) [] [0] [0] 1 wf).window (ix1 k) 0 = 0 := rfl
  have hsi : (ScatterDims.mk (s := ⟨1, ![N]⟩) (si := ⟨2, ![n, 1]⟩) (u := ⟨1, ![n]⟩) [] [0] [0] 1 wf).siIdx (ix1 k)
      ⟨0, Nat.one_pos⟩ = ixP k := by
    funext b
    match b with
    | ⟨0, _⟩ => rfl
    | ⟨1, _⟩ => rfl
  have hst : (ScatterDims.mk (s := ⟨1, ![N]⟩) (si := ⟨2, ![n, 1]⟩) (u := ⟨1, ![n]⟩) [] [0] [0] 1 wf).start (ix1 k) idx 0
      = (idx (ixP k)).toInt := by
    rw [← hsi]; rfl
  constructor
  · intro h
    have h0 : (idx (ixP k)).toInt + ((0 : Nat) : Int) = (i.val : Int) := by
      have := h 0
      rw [hwin, hst] at this
      exact this
    simpa using h0
  · intro h a
    obtain rfl : a = 0 := Subsingleton.elim _ _
    rw [hwin, hst, h]
    show (i.val : Int) + ((0 : Nat) : Int) = (i.val : Int)
    simp

/-- A row-wise accumulating scatter: element `(k, q)` of the updates lands on operand element `(i, q')` exactly
    when the signed value of the `k`-th scatter index is `i` and the columns agree. -/
theorem scatter_rows_lands {N C n w : Nat} (d : ScatterDims ⟨2, ![N, C]⟩ ⟨2, ![n, 1]⟩ ⟨2, ![n, C]⟩)
    (huw : d.updateWindowDims = [1]) (hins : d.insertedWindowDims = [0])
    (hsd : d.scatterDimsToOperandDims = [0]) (hivd : d.indexVectorDim = 1)
    (idx : IVec ⟨2, ![n, 1]⟩ w) (k : Fin n) (q : Fin C) (i : Fin N) (q' : Fin C) :
    d.resultIdx? (ix2 k q) idx = some (ix2 i q') ↔ (idx (ixP k)).toInt = (i.val : Int) ∧ q = q' := by
  obtain ⟨uw, ins, sd, ivd, wf⟩ := d
  dsimp only at huw hins hsd hivd
  subst huw hins hsd hivd
  rw [resultIdx?_eq_some_iff]
  -- axis 0 (rows) is inserted and start-indexed: window coordinate 0, start the signed index;
  -- axis 1 (columns) is a window axis the index map does not name: start 0, window coordinate the update's column
  have hwin0 : (ScatterDims.mk (s := ⟨2, ![N, C]⟩) (si := ⟨2, ![n, 1]⟩) (u := ⟨2, ![n, C]⟩) [1] [0] [0] 1 wf).window (ix2 k q) 0 = 0 := rfl
  have hwin1 : (ScatterDims.mk (s := ⟨2, ![N, C]⟩) (si := ⟨2, ![n, 1]⟩) (u := ⟨2, ![n, C]⟩) [1] [0] [0] 1 wf).window (ix2 k q) 1 = q.val := rfl
  have hsi : (ScatterDims.mk (s := ⟨2, ![N, C]⟩) (si := ⟨2, ![n, 1]⟩) (u := ⟨2, ![n, C]⟩) [1] [0] [0] 1 wf).siIdx (ix2 k q)
      ⟨0, Nat.one_pos⟩ = ixP k := by
    funext b
    match b with
    | ⟨0, _⟩ => rfl
    | ⟨1, _⟩ => rfl
  have hst0 : (ScatterDims.mk (s := ⟨2, ![N, C]⟩) (si := ⟨2, ![n, 1]⟩) (u := ⟨2, ![n, C]⟩) [1] [0] [0] 1 wf).start (ix2 k q) idx 0
      = (idx (ixP k)).toInt := by
    rw [← hsi]; rfl
  have hst1 : (ScatterDims.mk (s := ⟨2, ![N, C]⟩) (si := ⟨2, ![n, 1]⟩) (u := ⟨2, ![n, C]⟩) [1] [0] [0] 1 wf).start (ix2 k q) idx 1
      = 0 := rfl
  constructor
  · intro h
    have h0 : (idx (ixP k)).toInt + ((0 : Nat) : Int) = (i.val : Int) := by
      have := h 0
      rw [hwin0, hst0] at this
      exact this
    have h1 : (0 : Int) + (q.val : Int) = (q'.val : Int) := by
      have := h 1
      rw [hwin1, hst1] at this
      exact this
    refine ⟨by simpa using h0, Fin.ext ?_⟩
    omega
  · rintro ⟨h, rfl⟩ a
    match a with
    | ⟨0, _⟩ =>
      show (ScatterDims.mk (s := ⟨2, ![N, C]⟩) (si := ⟨2, ![n, 1]⟩) (u := ⟨2, ![n, C]⟩) [1] [0] [0] 1 wf).start (ix2 k q) idx 0
        + ((ScatterDims.mk (s := ⟨2, ![N, C]⟩) (si := ⟨2, ![n, 1]⟩) (u := ⟨2, ![n, C]⟩) [1] [0] [0] 1 wf).window (ix2 k q) 0 : Int)
        = (i.val : Int)
      rw [hwin0, hst0, h]; simp
    | ⟨1, _⟩ =>
      show (ScatterDims.mk (s := ⟨2, ![N, C]⟩) (si := ⟨2, ![n, 1]⟩) (u := ⟨2, ![n, C]⟩) [1] [0] [0] 1 wf).start (ix2 k q) idx 1
        + ((ScatterDims.mk (s := ⟨2, ![N, C]⟩) (si := ⟨2, ![n, 1]⟩) (u := ⟨2, ![n, C]⟩) [1] [0] [0] 1 wf).window (ix2 k q) 1 : Int)
        = (q.val : Int)
      rw [hwin1, hst1]; simp

/-- A gather of whole rows: element `(p, q)` of the result is the table's element in column `q` of the row the
    `p`-th start index names, read signed and clamped into `[0, N − 1]`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![n, 1]⟩ w) (p : Fin n) (q : Fin C) (hN : 0 < N) :
    Host.gather d x idx (ix2 p q) = x (ix2 ⟨min (idx (ixP p)).toInt.toNat (N - 1), by omega⟩ q) := by
  obtain ⟨od, cd, ob, sb, sim, ivd, ss, wf⟩ := d
  dsimp only at hoff hcoll hob hsim hivd hss
  subst hoff hcoll hob hsim hivd hss
  unfold Host.gather
  congr 1
  -- the start-indices position result element (p, q) reads: row p of the index column
  have hsi : (GatherDims.mk (s := ⟨2, ![N, C]⟩) (si := ⟨2, ![n, 1]⟩) (t := ⟨2, ![n, C]⟩) [1] [0] [] sb [0] 1 ![1, C] wf).siIdx (ix2 p q)
      ⟨0, Nat.one_pos⟩ = ixP p := by
    funext b
    match b with
    | ⟨0, _⟩ => rfl
    | ⟨1, _⟩ => rfl
  funext a
  apply Fin.ext
  match a with
  | ⟨0, _⟩ =>
    -- rows: collapsed and start-indexed, slice size 1: the clamped signed index, no batch or offset coordinate
    show (GatherDims.mk (s := ⟨2, ![N, C]⟩) (si := ⟨2, ![n, 1]⟩) (t := ⟨2, ![n, C]⟩) [1] [0] [] sb [0] 1 ![1, C] wf).start (ix2 p q) idx 0
      + (GatherDims.mk (s := ⟨2, ![N, C]⟩) (si := ⟨2, ![n, 1]⟩) (t := ⟨2, ![n, C]⟩) [1] [0] [] sb [0] 1 ![1, C] wf).batchCoord (ix2 p q) 0
      + (GatherDims.mk (s := ⟨2, ![N, C]⟩) (si := ⟨2, ![n, 1]⟩) (t := ⟨2, ![n, C]⟩) [1] [0] [] sb [0] 1 ![1, C] wf).offCoord (ix2 p q) 0
      = min (idx (ixP p)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    rw [← hsi]
    rfl
  | ⟨1, _⟩ =>
    -- columns: kept, not start-indexed: start 0, no batch coordinate, offset coordinate the result's column
    show (GatherDims.mk (s := ⟨2, ![N, C]⟩) (si := ⟨2, ![n, 1]⟩) (t := ⟨2, ![n, C]⟩) [1] [0] [] sb [0] 1 ![1, C] wf).start (ix2 p q) idx 1
      + (GatherDims.mk (s := ⟨2, ![N, C]⟩) (si := ⟨2, ![n, 1]⟩) (t := ⟨2, ![n, C]⟩) [1] [0] [] sb [0] 1 ![1, C] wf).batchCoord (ix2 p q) 1
      + (GatherDims.mk (s := ⟨2, ![N, C]⟩) (si := ⟨2, ![n, 1]⟩) (t := ⟨2, ![n, C]⟩) [1] [0] [] sb [0] 1 ![1, C] wf).offCoord (ix2 p q) 1
      = q.val
    rw [GatherDims.batchCoord_eq_zero _ _ _ List.not_mem_nil, Nat.add_zero]
    have hst : (GatherDims.mk (s := ⟨2, ![N, C]⟩) (si := ⟨2, ![n, 1]⟩) (t := ⟨2, ![n, C]⟩) [1] [0] [] sb [0] 1 ![1, C] wf).start (ix2 p q) idx 1 = 0 := rfl
    have hoc : (GatherDims.mk (s := ⟨2, ![N, C]⟩) (si := ⟨2, ![n, 1]⟩) (t := ⟨2, ![n, C]⟩) [1] [0] [] sb [0] 1 ![1, C] wf).offCoord (ix2 p q) 1 = q.val := rfl
    rw [hst, hoc, Nat.zero_add]

/-- Summing over the row-wise updates that land on one operand element: when a set `s` of update elements holds
    (k, q) exactly if row k is selected (`R k`) and its column is `b`, the sum over `s` is the sum over the selected
    rows of the update's element in column `b` (each selected row contributes that one element). -/
theorem sum_rows_landing {n0 n1 : Nat} {M : Type*} [AddCommMonoid M]
    (s : Finset (⟨2, ![n0, n1]⟩ : Shape).Idx) (R : Fin n0 → Prop) (b : Fin n1)
    [DecidablePred fun k : (⟨1, ![n0]⟩ : Shape).Idx => R (k 0)]
    (hs : ∀ k q, ix2 k q ∈ s ↔ R k ∧ q = b) (f : (⟨2, ![n0, n1]⟩ : Shape).Idx → M) :
    ∑ u ∈ s, f u
      = ∑ k ∈ Finset.univ.filter (fun k : (⟨1, ![n0]⟩ : Shape).Idx => R (k 0)), f (ix2 (k 0) b) := by
  refine Finset.sum_nbij' (fun u => ix1 (u 0)) (fun k => ix2 (k 0) b) ?_ ?_ ?_ ?_ ?_
  · intro u hu
    rw [eq_ix2 u] at hu
    rw [Finset.mem_filter]
    exact ⟨Finset.mem_univ _, ((hs _ _).mp hu).1⟩
  · intro k hk
    rw [Finset.mem_filter] at hk
    exact (hs _ _).mpr ⟨hk.2, rfl⟩
  · intro u hu
    rw [eq_ix2 u] at hu
    have hq := ((hs _ _).mp hu).2
    show ix2 (u 0) b = u
    rw [← hq]
    exact (eq_ix2 u).symm
  · intro k _
    exact (eq_ix1 k).symm
  · intro u hu
    rw [eq_ix2 u] at hu
    have hq := ((hs _ _).mp hu).2
    show f u = f (ix2 (u 0) b)
    rw [← hq]
    exact congrArg f (eq_ix2 u)

/-! ## The accumulating scatters read at an index, over the extended reals -/

/-- The accumulating scatter at the ideal values, by definition: the operand's element plus the sum of the updates
    that land on it. -/
theorem scatterAdd_apply {s si su : Shape} {φ : FTy} {w : Nat} (d : ScatterDims s si su) (x : FVec Ideal s φ)
    (idx : IVec si w) (upd : FVec Ideal su φ) (i : s.Idx) :
    Host.scatterAdd d x idx upd i
      = x i + ∑ j ∈ Finset.univ.filter (fun j => d.resultIdx? j idx = some i), upd j := rfl

/-- THE FLAT SCATTER-ADD AT POSITION i: the operand there plus the sum of the updates whose index, read signed, is i. -/
theorem scatterAdd_flat_apply {N n w : Nat} {φ : FTy} (d : ScatterDims ⟨1, ![N]⟩ ⟨2, ![n, 1]⟩ ⟨1, ![n]⟩)
    (huw : d.updateWindowDims = []) (hins : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (i : Fin N) :
    Host.scatterAdd d x idx upd (ix1 i)
      = x (ix1 i) + ∑ k ∈ Finset.univ.filter (fun k : (⟨1, ![n]⟩ : Shape).Idx => (idx (ixP (k 0))).toInt = (i.val : Int)),
          upd k := by
  rw [scatterAdd_apply]
  refine congrArg (x (ix1 i) + ·) (Finset.sum_congr ?_ fun _ _ => rfl)
  ext k
  obtain ⟨p, rfl⟩ : ∃ p : Fin n, k = ix1 p := ⟨k 0, eq_ix1 k⟩
  rw [Finset.mem_filter, Finset.mem_filter]
  exact and_congr_right fun _ => scatter_flat_lands d huw hins hsd hivd idx p i

/-- THE ROW-WISE SCATTER-ADD AT (i, b): the operand there plus the sum, over the update rows whose index read signed
    is i, of the row's element in column b. -/
theorem scatterAdd_rows_apply {N C n w : Nat} {φ : FTy} (d : ScatterDims ⟨2, ![N, C]⟩ ⟨2, ![n, 1]⟩ ⟨2, ![n, C]⟩)
    (huw : d.updateWindowDims = [1]) (hins : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ) (i : Fin N) (b : Fin C) :
    Host.scatterAdd d x idx upd (ix2 i b)
      = x (ix2 i b) + ∑ k ∈ Finset.univ.filter (fun k : (⟨1, ![n]⟩ : Shape).Idx => (idx (ixP (k 0))).toInt = (i.val : Int)),
          upd (ix2 (k 0) b) := by
  rw [scatterAdd_apply]
  refine congrArg (x (ix2 i b) + ·) ?_
  refine sum_rows_landing _ (fun k : Fin n => (idx (ixP k)).toInt = (i.val : Int)) b (fun k q => ?_) upd
  rw [Finset.mem_filter]
  exact (and_iff_right (Finset.mem_univ _)).trans (scatter_rows_lands d huw hins hsd hivd idx k q i b)

end IndexedRows

end
-- ==== Proof.Words.lean ====
/-
  Small signed 32-bit words: a row id or a column index in [0, 4096) reads the same signed and unsigned, the flat
  position row · 4096 + col of two such words does not wrap, and a non-negative word is left alone by the rule that
  shifts a negative index up by the array's length.
-/
import Idealize.ShloMosaic.Lib.StableHlo.Predicate

namespace SparseWords

open Idealize.ShloMosaic Idealize.ShloMosaic.StableHlo.Predicate

/-- A word in [0, 4096) as a signed number is that number unsigned too. -/
theorem toNat_of_range {w : BitVec 32} (h : 0 ≤ w.toInt ∧ w.toInt < 4096) : w.toNat < 4096 ∧ w.toInt = (w.toNat : Int) := by
  have hw := w.isLt
  rw [BitVec.toInt_eq_toNat_cond] at h
  split at h
  · next hlt => exact ⟨by omega, by rw [BitVec.toInt_eq_toNat_cond, if_pos hlt]⟩
  · omega

/-- The flat position row · 4096 + col of a nonzero whose row and column are in range does not wrap:
    as a signed number it is that sum. -/
theorem flat_toInt {a b : BitVec 32} (ha : 0 ≤ a.toInt ∧ a.toInt < 4096) (hb : 0 ≤ b.toInt ∧ b.toInt < 4096) :
    (IntOp.addi (IntOp.muli a 4096#32) b).toInt = a.toInt * 4096 + b.toInt := by
  obtain ⟨ha1, ha2⟩ := toNat_of_range ha
  obtain ⟨hb1, hb2⟩ := toNat_of_range hb
  have e : (IntOp.addi (IntOp.muli a 4096#32) b).toNat = a.toNat * 4096 + b.toNat := by
    show (a * 4096#32 + b).toNat = _
    rw [BitVec.toNat_add, BitVec.toNat_mul]
    have h4 : (4096#32 : BitVec 32).toNat = 4096 := by decide
    rw [h4]
    omega
  rw [toInt_eq_toNat_of_lt (by rw [e]; omega), e, ha2, hb2]
  push_cast
  rfl

/-- A non-negative word is not shifted by the negative-index rule. -/
theorem select_nonneg (f c : BitVec 32) (h : 0 ≤ f.toInt) : Scalar.select (IntOp.cmpi .slt f 0#32) c f = f := by
  unfold Scalar.select
  rw [if_neg]
  unfold IntOp.cmpi
  intro hc
  have hc' : BitVec.ofBool (f.slt 0#32) = 1#1 := hc
  rw [ofBool_eq_one_iff] at hc'
  simp only [BitVec.slt, decide_eq_true_eq] at hc'
  have e0 : (0#32 : BitVec 32).toInt = 0 := by decide
  rw [e0] at hc'
  omega

end SparseWords
-- ==== Proof.DenseRead.lean ====
/-
  The dense matrix at (n, j), for row ids and column indices in [0, 4096): the flat position row · 4096 + col does not
  wrap and is never negative, so it names the entry (row, col) and no other, and entry (n, j) of the matrix — position
  n · 4096 + j of the flat array — holds zero plus the sum of the nonzeros whose row id is n and column index is j.
  Each nonzero is an integer times a scale, a real number when the scales are.
-/
import proofs.«412043_j6554120093747_3_alg».proof.Proof.KernelHost
import proofs.«412043_j6554120093747_3_alg».proof.Proof.LibIndexedRows
import proofs.«412043_j6554120093747_3_alg».proof.Proof.Words
import Idealize.ShloMosaic.Lib.Pipeline.Value
import Idealize.ShloMosaic.PureOps.Ideal.Laws

noncomputable section

namespace Cert.KernelIdeal.HostValue

open Cert.KernelIdeal Idealize.ShloMosaic Idealize.ShloMosaic.TcCoe
open Idealize.ShloMosaic.ValueIdx Idealize.ShloMosaic.StableHlo.Predicate SparseWords

/-- The rank-1 index at coordinate k, in its two spellings. -/
theorem ofFin_eq_ix1 {n : Nat} (k : Fin n) : Shape.Idx.ofFin k = ix1 k := by
  funext a; match a with | ⟨0, _⟩ => rfl

/-- The scatter-index column read at row `k`: the flat position itself, when row and column are in range. -/
theorem flatColumn_apply (row col : IVec S1638400 32) (k : Fin 1638400)
    (hr : 0 ≤ (row (ix1 k)).toInt ∧ (row (ix1 k)).toInt < 4096) (hc : 0 ≤ (col (ix1 k)).toInt ∧ (col (ix1 k)).toInt < 4096) :
    (flatColumn row col (ixP k)).toInt = (row (ix1 k)).toInt * 4096 + (col (ix1 k)).toInt := by
  have hf := flat_toInt hr hc
  have e : flatColumn row col (ixP k)
      = Scalar.select (IntOp.cmpi .slt (IntOp.addi (IntOp.muli (row (ix1 k)) 4096#32) (col (ix1 k))) 0#32)
          (IntOp.addi (IntOp.addi (IntOp.muli (row (ix1 k)) 4096#32) (col (ix1 k))) 16777216#32)
          (IntOp.addi (IntOp.muli (row (ix1 k)) 4096#32) (col (ix1 k))) := by
    unfold flatColumn
    rw [bcast_col1, ofFin_eq_ix1]
    rfl
  rw [e, select_nonneg _ _ (by rw [hf]; omega), hf]

/-- Each dequantised nonzero is a real number when the scales are: an integer times a scale. -/
theorem nonzeros_real (wv : IVec S1638400 32) (sc : FVec Ideal S4096 .f32) (row : IVec S1638400 32)
    (hsc : ∀ i, ∃ r : ℝ, sc i = (r : EReal)) (k : S1638400.Idx) : ∃ r : ℝ, nonzeros wv sc row k = (r : EReal) := by
  obtain ⟨p, rfl⟩ : ∃ p, k = Shape.Idx.ofFin p := ⟨k 0, Shape.Idx.eq_ofFin k⟩
  unfold nonzeros
  rw [mulf_apply, sitofp_apply, gather_take _ rfl rfl rfl rfl _ _ _ (by decide)]
  obtain ⟨r, hr⟩ := hsc (Shape.Idx.ofFin ⟨min ((rowColumn row) (ixP p)).toInt.toNat (4096 - 1), by omega⟩)
  exact ⟨((wv (Shape.Idx.ofFin p)).toInt : ℝ) * r, by rw [hr, EReal.coe_mul]; rfl⟩

/-- THE DENSE MATRIX AT (n, j): zero plus the sum of the nonzeros whose row id is n and whose column index is j. -/
theorem dense_apply (wv : IVec S1638400 32) (sc : FVec Ideal S4096 .f32) (row col : IVec S1638400 32)
    (hrow : ∀ k, 0 ≤ (row k).toInt ∧ (row k).toInt < 4096) (hcol : ∀ k, 0 ≤ (col k).toInt ∧ (col k).toInt < 4096)
    (n j : Fin 4096) :
    dense wv sc row col (ix2 n j)
      = (0 : EReal) + ∑ k ∈ Finset.univ.filter (fun k : S1638400.Idx => (row k).toInt = (n.val : Int) ∧ (col k).toInt = (j.val : Int)),
          nonzeros wv sc row k := by
  unfold dense
  rw [shapeCast_apply _ _ (ix2 n j) (ix1 (⟨n.val * 4096 + j.val, by have := n.isLt; have := j.isLt; omega⟩ : Fin 16777216))
    (by rw [Shape.rowMajor_val_one, Shape.rowMajor_val_two]; rfl),
    IndexedRows.scatterAdd_flat_apply _ rfl rfl rfl rfl]
  refine congrArg₂ (· + ·) Ideal.ofBits_zero_f32 (Finset.sum_congr ?_ fun _ _ => rfl)
  ext k
  obtain ⟨p, rfl⟩ : ∃ p : Fin 1638400, k = ix1 p := ⟨k 0, eq_ix1 k⟩
  rw [Finset.mem_filter, Finset.mem_filter]
  refine and_congr_right fun _ => ?_
  show (flatColumn row col (ixP p)).toInt = ((n.val * 4096 + j.val : Nat) : Int)
    ↔ (row (ix1 p)).toInt = (n.val : Int) ∧ (col (ix1 p)).toInt = (j.val : Int)
  rw [flatColumn_apply row col p (hrow _) (hcol _)]
  have h1 := hrow (ix1 p)
  have h2 := hcol (ix1 p)
  have hn := n.isLt
  have hj := j.isLt
  push_cast
  constructor
  · intro h; constructor <;> omega
  · rintro ⟨h3, h4⟩; omega

end Cert.KernelIdeal.HostValue

end
-- ==== Proof.RefRead.lean ====
/-
  The reference's result at (b, n), for column indices in [0, 4096).

  The reference gathers, for every nonzero k, row col k of xᵀ (the gather clamps its start index; a non-negative index is
  not shifted), multiplies it by the k-th dequantised value spread over the 128 batch entries, and adds row k of that
  [nnz, 128] array into row (row id k) of a zero [4096, 128] array, an update with a row id outside [0, 4096) being
  dropped.  Element (n, b) of the sum is therefore zero plus the sum over the nonzeros with row id n of
  x[b, col k] · v k; the result is its transpose plus the bias along the rows.
-/
import proofs.«412043_j6554120093747_3_alg».proof.Proof.Gen.ReferenceIdeal.Read
import proofs.«412043_j6554120093747_3_alg».proof.Proof.LibIndexedRows
import proofs.«412043_j6554120093747_3_alg».proof.Proof.Words
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.TcCoe
open Idealize.ShloMosaic.ValueIdx Idealize.ShloMosaic.StableHlo.Predicate SparseWords

/-- The column a nonzero's index names, clamped into the 4096 columns as the gather clamps it. -/
def colOf (col : IVec S1638400 32) (k : S1638400.Idx) : Fin 4096 := ⟨min (col k).toInt.toNat (4096 - 1), by omega⟩

/-- The gathered rows: element (k, q) is x[q, col k], for a non-negative column index. -/
theorem rows_gathered (x0 : FVec Ideal S128x4096 .f32) (x4 : IVec S1638400 32) (k : Fin 1638400) (q : Fin 128)
    (hc : 0 ≤ (x4 (ix1 k)).toInt) :
    val_main_v16 (F := Ideal) x0 x4 (ix2 k q) = x0 (ix2 q (colOf x4 (ix1 k))) := by
  unfold val_main_v16
  rw [IndexedRows.gather_rows _ rfl rfl rfl rfl rfl rfl _ _ k q (by decide), val_main_v9_apply]
  have hi : idx_main_v15 (ixP k) = ix1 k := by
    funext a; match a with | ⟨0, _⟩ => rfl
  have e : val_main_v15 (F := Ideal) x4 (ixP k) = x4 (ix1 k) := by
    rw [val_main_v15_apply, val_main_v14_apply, hi]
    exact select_nonneg (x4 (ix1 k)) (val_main_v13 (F := Ideal) x4 (ix1 k)) hc
  refine congrArg x0 ?_
  funext a
  match a with
  | ⟨0, _⟩ => rfl
  | ⟨1, _⟩ =>
    refine Fin.ext ?_
    show min (val_main_v15 (F := Ideal) x4 (ixP k)).toInt.toNat (4096 - 1) = min (x4 (ix1 k)).toInt.toNat (4096 - 1)
    rw [e]

/-- The nonzero values spread over the 128 columns: element (k, q) is the k-th value. -/
theorem values_spread (x1 : IVec S1638400 32) (x2 : FVec Ideal S4096 .f32) (x3 : IVec S1638400 32) (k : Fin 1638400) (q : Fin 128) :
    val_main_v18 (F := Ideal) x1 x2 x3 (ix2 k q) = val_main_v8 (F := Ideal) x1 x2 x3 (ix1 k) := by
  rw [val_main_v18_apply, val_main_v17_apply]
  exact congrArg _ (by funext a; match a with | ⟨0, _⟩ => rfl)

/-- The segment ids as a column, read at row k. -/
theorem ids_column (x3 : IVec S1638400 32) (k : Fin 1638400) : val_main_v21 (F := Ideal) x3 (ixP k) = x3 (ix1 k) := by
  rw [val_main_v21_apply]
  exact congrArg x3 (by funext a; match a with | ⟨0, _⟩ => rfl)

/-- THE REFERENCE'S RESULT AT (b, n): zero plus the sum, over the nonzeros whose row id is n, of x[b, col k] times the
    k-th value, plus the bias at n. -/
theorem result_apply (x0 : FVec Ideal S128x4096 .f32) (x1 : IVec S1638400 32) (x2 : FVec Ideal S4096 .f32)
    (x3 x4 : IVec S1638400 32) (x5 : FVec Ideal S4096 .f32)
    (hcol : ∀ k, 0 ≤ (x4 k).toInt ∧ (x4 k).toInt < 4096) (b : Fin 128) (n : Fin 4096) :
    val_main_v26 (F := Ideal) x0 x1 x2 x3 x4 x5 (ix2 b n)
      = ((0 : EReal) + ∑ k ∈ Finset.univ.filter (fun k : S1638400.Idx => (x3 k).toInt = (n.val : Int)),
            x0 (ix2 b (colOf x4 k)) * val_main_v8 (F := Ideal) x1 x2 x3 k) + x5 (ix1 n) := by
  rw [val_main_v26_apply, val_main_v23_apply, val_main_v25_apply, val_main_v24_apply]
  have hi : idx_main_v23 (ix2 b n) = ix2 n b := by
    funext a; match a with | ⟨0, _⟩ => rfl | ⟨1, _⟩ => rfl
  have hb : idx_main_v24 (idx_main_v25 (ix2 b n)) = ix1 n := by
    funext a; match a with | ⟨0, _⟩ => rfl
  rw [hi, hb]
  unfold val_main_v22
  rw [IndexedRows.scatterAdd_rows_apply _ rfl rfl rfl rfl]
  refine congrArg₂ (· + ·) (congrArg₂ (· + ·) ?_ (Finset.sum_congr ?_ fun k _ => ?_)) rfl
  · rw [val_main_v20_apply, val_main_cst_apply]
    exact Ideal.ofBits_zero_f32
  · ext k
    obtain ⟨p, rfl⟩ : ∃ p : Fin 1638400, k = ix1 p := ⟨k 0, eq_ix1 k⟩
    rw [Finset.mem_filter, Finset.mem_filter]
    refine and_congr_right fun _ => ?_
    show (val_main_v21 (F := Ideal) x3 (ixP p)).toInt = (n.val : Int) ↔ (x3 (ix1 p)).toInt = (n.val : Int)
    rw [ids_column]
  · obtain ⟨p, rfl⟩ : ∃ p : Fin 1638400, k = ix1 p := ⟨k 0, eq_ix1 k⟩
    show val_main_v19 (F := Ideal) x0 x1 x2 x3 x4 (ix2 p b)
      = x0 (ix2 b (colOf x4 (ix1 p))) * val_main_v8 (F := Ideal) x1 x2 x3 (ix1 p)
    rw [val_main_v19_apply, rows_gathered x0 x4 p b (hcol _).1, values_spread]
    rfl

end Cert.ReferenceIdeal.RefValue

end
-- ==== Proof.Algebra.lean ====
/-
  Densify then multiply, or gather, scale and sum: one identity of finite sums.

  A sparse matrix row is given by nonzeros v k, each filed under a column g k; the dense row has in column j the sum of
  the nonzeros filed there.  Its dot product with a vector x is Σ_j x j · (Σ_{k : g k = j} v k).  When every x j and
  every v k is a real number the product distributes over each inner sum, and the double sum, grouped by column, is the
  single sum Σ_k x (g k) · v k over the nonzeros.  The extended reals do not distribute at infinities, so the identity
  is stated for real entries read in the extended reals, where a finite sum of reals is the real sum.
-/
import Mathlib.Data.EReal.Operations
import Mathlib.Algebra.BigOperators.Group.Finset.Basic
import Mathlib.Algebra.BigOperators.Ring.Finset

noncomputable section

namespace SparseDense

open Finset

/-- A finite sum of reals, read in the extended reals, is the sum of the terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Densify, then multiply: a row of a matrix whose entry in column `j` is the sum of the nonzeros `v k` filed
    under column `g k = j` (among those a predicate `P` selects), dotted with a vector `x`, is the sum over the
    selected nonzeros of `x (g k) · v k`.  All entries are real, so the product distributes over each column's sum;
    the columns' sums are then one sum over the nonzeros, each counted in its own column. -/
theorem dot_dense_eq_sum_nonzeros {K J : Type*} [Fintype K] [Fintype J] [DecidableEq J]
    (P : K → Prop) [DecidablePred P] (g : K → J) (x : J → ℝ) (v : K → ℝ)
    [∀ j, DecidablePred fun k => P k ∧ g k = j] :
    ∑ j : J, (x j : EReal) * (0 + ∑ k ∈ univ.filter (fun k => P k ∧ g k = j), (v k : EReal))
      = 0 + ∑ k ∈ univ.filter P, (x (g k) : EReal) * (v k : EReal) := by
  rename_i dQ
  have hQ : dQ = fun _ _ => instDecidableAnd := Subsingleton.elim _ _
  subst hQ
  simp only [zero_add, ← coe_sum, ← EReal.coe_mul]
  congr 1
  simp only [Finset.mul_sum]
  rw [← Finset.sum_fiberwise_of_maps_to (s := univ.filter P) (t := univ) (g := g) (fun _ _ => mem_univ _)]
  refine Finset.sum_congr rfl fun j _ => ?_
  rw [Finset.filter_filter]
  refine Finset.sum_congr rfl fun k hk => ?_
  rw [(mem_filter.1 hk).2.2]

end SparseDense

end
-- ==== Proof.PreFacts.lean ====
/-
  The precondition read back: the printed predicate is a conjunction of seven "all" reductions; being 1 it says that
  every |x|, |scale| and |bias| is below +∞ — so each is a real number, the extended reals having no other elements
  of finite absolute value — and that every row id and every column index is ≥ 0 and < 4096 as a signed 32-bit number.
-/
import proofs.«412043_j6554120093747_3_alg».proof.Pre_finite_inputs
import Idealize.ShloMosaic.Lib.ReduceAll
import Idealize.ShloMosaic.Lib.ValueIdx
import Idealize.ShloMosaic.Lib.StableHlo.Predicate

set_option maxRecDepth 16384

noncomputable section

namespace Cert.Pre_finite_inputs.Decode

open Cert.Pre_finite_inputs Idealize.ShloMosaic Idealize.ShloMosaic.ValueIdx

variable [Facts]

instance : Subsingleton S_.Idx := ⟨fun a b => funext fun d => d.elim0⟩

theorem and1 : ∀ (a b : BitVec 1), IntOp.andi a b = 1#1 ↔ a = 1#1 ∧ b = 1#1 := by decide

theorem ofBool_one (b : Bool) : BitVec.ofBool b = 1#1 ↔ b = true := by cases b <;> decide

/-- The f32 pattern of +∞ denotes the top element. -/
theorem inf_word : Ideal.ofBits .f32 0x7F800000#32 = (⊤ : EReal) := by
  simp [Ideal.ofBits, Ideal.ieee]

/-- An extended real whose absolute value is below +∞ is a real number. -/
theorem real_of_abs_lt_top (x : EReal) (h : Ideal.cmp .olt (max x (-x)) (Ideal.ofBits .f32 0x7F800000#32) = 1#1) :
    ∃ r : ℝ, x = (r : EReal) := by
  rw [inf_word] at h
  unfold Ideal.cmp at h
  rw [ofBool_one] at h
  have h' : max x (-x) < ⊤ := by simpa using h
  induction x using EReal.rec with
  | bot => simp at h'
  | coe r => exact ⟨r, rfl⟩
  | top => simp at h'

/-- A 32-bit word that is ≥ 0 and < 4096 as a signed number. -/
theorem range_of_cmp (w : BitVec 32) (h0 : IntOp.cmpi .sge w 0#32 = 1#1) (h1 : IntOp.cmpi .slt w 4096#32 = 1#1) :
    0 ≤ w.toInt ∧ w.toInt < 4096 := by
  unfold IntOp.cmpi at h0 h1
  rw [ofBool_one] at h0 h1
  simp only [BitVec.slt, BitVec.sle, decide_eq_true_eq] at h0 h1
  have e0 : (0#32 : BitVec 32).toInt = 0 := by decide
  have e1 : (4096#32 : BitVec 32).toInt = 4096 := by decide
  rw [e0] at h0
  rw [e1] at h1
  exact ⟨h0, h1⟩

/-- THE PRECONDITION DECODED: the three float inputs hold real numbers, and every row id and every column index
    is in [0, 4096). -/
theorem decode {a0 : FVec Ideal S128x4096 .f32} {a1 : IVec S1638400 32} {a2 : FVec Ideal S4096 .f32}
    {a3 a4 : IVec S1638400 32} {a5 : FVec Ideal S4096 .f32}
    (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a5 i = (r : EReal))
      ∧ (∀ k, 0 ≤ (a3 k).toInt ∧ (a3 k).toInt < 4096) ∧ (∀ k, 0 ≤ (a4 k).toInt ∧ (a4 k).toInt < 4096) := by
  have e := congrFun h ix0
  dsimp only [fn, fn_part1] at e
  simp only [andi, and1] at e
  obtain ⟨⟨⟨⟨⟨⟨h0, h2⟩, h5⟩, r0⟩, r1⟩, c0⟩, c1⟩ := e
  refine ⟨fun i => ?_, fun i => ?_, fun i => ?_, fun k => ?_, fun k => ?_⟩
  · exact real_of_abs_lt_top _ (Host.reduce_andi_all _ _ _ _ _ h0 i)
  · exact real_of_abs_lt_top _ (Host.reduce_andi_all _ _ _ _ _ h2 i)
  · exact real_of_abs_lt_top _ (Host.reduce_andi_all _ _ _ _ _ h5 i)
  · exact range_of_cmp _ (Host.reduce_andi_all _ _ _ _ _ r0 k) (Host.reduce_andi_all _ _ _ _ _ r1 k)
  · exact range_of_cmp _ (Host.reduce_andi_all _ _ _ _ _ c0 k) (Host.reduce_andi_all _ _ _ _ _ c1 k)

end Cert.Pre_finite_inputs.Decode

end
-- ==== Proof.Bridge.lean ====
/-
  The kernel's result array is the reference's.

  Kernel: result(b, n) = Σ_j x(b, j) · W(n, j) + bias(n), with W(n, j) = 0 + Σ_{k : row k = n, col k = j} v k.
  Reference: result(b, n) = (0 + Σ_{k : row k = n} x(b, col k) · v k) + bias(n).
  Under the precondition x and v are real and the indices in range, so x(b, j) · W(n, j) distributes over W(n, j)'s sum
  and the sums over the columns j join into the one sum over the nonzeros of row n.  Both programs compute v by the
  same operations.
-/
import proofs.«412043_j6554120093747_3_alg».proof.Defs
import proofs.«412043_j6554120093747_3_alg».proof.Proof.KernelFold
import proofs.«412043_j6554120093747_3_alg».proof.Proof.DenseRead
import proofs.«412043_j6554120093747_3_alg».proof.Proof.RefRead
import proofs.«412043_j6554120093747_3_alg».proof.Proof.Algebra
import proofs.«412043_j6554120093747_3_alg».proof.Proof.PreFacts
import proofs.«412043_j6554120093747_3_alg».proof.Proof.Gen.Pre_finite_inputs

noncomputable section

namespace Cert.Proof.Bridge

open Idealize.ShloMosaic Idealize.ShloMosaic.TcCoe Idealize.SL.Sem
open Idealize.ShloMosaic.ValueIdx
open Cert.KernelIdeal.HostValue Cert.ReferenceIdeal.RefValue

/-- Both programs dequantise the nonzeros by the same operations on the same arrays. -/
theorem nonzeros_eq (x1 : IVec Cert.KernelIdeal.S1638400 32) (x2 : FVec Ideal Cert.KernelIdeal.S4096 .f32)
    (x3 : IVec Cert.KernelIdeal.S1638400 32) :
    nonzeros x1 x2 x3 = Cert.ReferenceIdeal.Read.val_main_v8 (F := Ideal) x1 x2 x3 := rfl

/-- For a column index in range, "the clamped column is j" says "the index is j". -/
theorem colOf_eq_iff (col : IVec Cert.KernelIdeal.S1638400 32) (k : Cert.KernelIdeal.S1638400.Idx)
    (h : 0 ≤ (col k).toInt ∧ (col k).toInt < 4096) (j : Fin 4096) :
    colOf col k = j ↔ (col k).toInt = (j.val : Int) := by
  unfold colOf
  rw [Fin.ext_iff]
  show min (col k).toInt.toNat (4096 - 1) = j.val ↔ _
  have hj := j.isLt
  omega

variable (m : (ℓ : Loc Cert.KernelIdeal.nD Cert.KernelIdeal.τ Cert.KernelIdeal.sig) → Buf (Elt Ideal) ℓ)

/-- THE TWO RESULTS ARE ONE ARRAY. At (b, n) the kernel holds the dot product of row b of x with row n of the dense
    matrix, plus the bias; row n of the dense matrix holds in column j the sum of the nonzeros filed under (n, j); the
    entries being real, the product distributes over those sums and the sums over the columns join into one sum over the
    nonzeros of row n, each multiplied by x at its own column: the reference's segment sum. -/
theorem result_eq (hpre : Cert.Pre_KernelIdeal m) (c : Dev Cert.KernelIdeal.nD) :
    Cert.ReferenceIdeal.Read.val_main_v26 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Value.G3 (F := Ideal) m c := by
  obtain ⟨h0, h2, h5, hrow, hcol⟩ := Cert.Pre_finite_inputs.Decode.decode (hpre c)
  funext i
  obtain ⟨b, n, rfl⟩ : ∃ (b : Fin 128) (n : Fin 4096), i = ix2 b n := ⟨i 0, i 1, eq_ix2 i⟩
  rw [result_apply _ _ _ _ _ _ hcol b n]
  refine Eq.trans ?_ (Cert.KernelIdeal.Fold.G3_apply m c b n).symm
  have hbias : (Cert.KernelIdeal.Fold.barr m c (ix2 0 n) : EReal)
      = m ((c.tc : Thread Cert.KernelIdeal.nD Cert.KernelIdeal.τ).loc Cert.KernelIdeal.main_arg5) (ix1 n) := by
    show (Cert.KernelIdeal.Gen.V m c Cert.KernelIdeal.main_v22 : Cert.KernelIdeal.S1x4096.Idx → EReal) (ix2 0 n) = _
    rw [bias_eq]
    exact shapeCast_apply _ _ (ix2 0 n) (ix1 n) (by rw [Shape.rowMajor_val_one, Shape.rowMajor_val_two]; simp)
  rw [hbias]
  have add_congr_left : ∀ A B C : EReal, A = B → A + C = B + C := fun _ _ _ h => h ▸ rfl
  refine add_congr_left _ _ _ ?_
  symm
  choose xr hxr using fun j : Fin 4096 => h0 (ix2 b j)
  choose vr hvr using fun k => nonzeros_real
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) h2 k
  have step : ∀ j : Fin 4096,
      (Cert.KernelIdeal.Fold.xarr m c (ix2 b j) : EReal) * Cert.KernelIdeal.Fold.warr m c (ix2 n j)
        = (xr j : EReal) * (0 + ∑ k ∈ Finset.univ.filter (fun k : Cert.KernelIdeal.S1638400.Idx =>
            (m ((c.tc : Thread Cert.KernelIdeal.nD Cert.KernelIdeal.τ).loc Cert.KernelIdeal.main_arg3) k).toInt = (n.val : Int)
              ∧ colOf (m ((c.tc : Thread Cert.KernelIdeal.nD Cert.KernelIdeal.τ).loc Cert.KernelIdeal.main_arg4)) k = j),
            (vr k : EReal)) := by
    intro j
    have e1 : (Cert.KernelIdeal.Fold.xarr m c (ix2 b j) : EReal) = (xr j : EReal) :=
      (congrFun (activations_eq m c) (ix2 b j)).trans (hxr j)
    have e2 : (Cert.KernelIdeal.Fold.warr m c (ix2 n j) : EReal) = _ :=
      (congrFun (weights_eq m c) (ix2 n j)).trans (dense_apply _ _ _ _ hrow hcol n j)
    rw [e1, e2]
    refine congrArg (fun z => (xr j : EReal) * (0 + z)) (Finset.sum_congr ?_ (fun k _ => hvr k))
    ext k
    rw [Finset.mem_filter, Finset.mem_filter]
    exact and_congr_right fun _ => and_congr_right fun _ => (colOf_eq_iff _ k (hcol k) j).symm
  refine (Finset.sum_congr rfl fun j _ => step j).trans ?_
  refine (SparseDense.dot_dense_eq_sum_nonzeros
    (fun k : Cert.KernelIdeal.S1638400.Idx =>
      (m ((c.tc : Thread Cert.KernelIdeal.nD Cert.KernelIdeal.τ).loc Cert.KernelIdeal.main_arg3) k).toInt = (n.val : Int))
    (colOf (m ((c.tc : Thread Cert.KernelIdeal.nD Cert.KernelIdeal.τ).loc Cert.KernelIdeal.main_arg4))) xr vr).trans ?_
  refine congrArg (fun z => (0 : EReal) + z) (Finset.sum_congr rfl fun k _ => ?_)
  rw [← hxr, ← hvr, nonzeros_eq]

end Cert.Proof.Bridge

end
-- ==== Proof.lean ====
/-
  A sparse linear layer with quantised weights, y[b, n] = Σ_{k in row n} (w[k] · scale[n]) · x[b, col[k]] + bias[n], over
  nonzeros given as (row id, column index, integer value) triples.

  The kernel first DENSIFIES: it adds each dequantised nonzero into a zero array of 4096 · 4096 entries at the flat position
  row · 4096 + col, lays that array out as a 4096 × 4096 matrix W, and then computes x · Wᵀ + bias blockwise, accumulating
  the product over four blocks of 1024 columns.  The reference never builds W: it gathers the column x[·, col[k]] for every
  nonzero, scales it by the nonzero's value and sums the scaled columns by row id.

  With every row id and column index in [0, 4096) the flat position does not wrap and names exactly the entry (row, col),
  so W[n, j] is the sum of the nonzeros filed under (n, j).  All inputs being finite, x[b, j] · W[n, j] distributes over
  that sum, and summing over j collects each nonzero of row n once, at its own column: Σ_j x[b, j] · W[n, j] =
  Σ_{k in row n} x[b, col[k]] · v[k].  Both programs dequantise v[k] by the same operations and add the same bias.
  The kernel's idealisation rewrites nothing, so its preservation claim is empty.
-/
import proofs.«412043_j6554120093747_3_alg».proof.Defs
import proofs.«412043_j6554120093747_3_alg».proof.Proof.Gen.Kernel.Frame
import proofs.«412043_j6554120093747_3_alg».proof.Proof.Gen.KernelIdeal.Value
import proofs.«412043_j6554120093747_3_alg».proof.Proof.Gen.Pre_finite_inputs
import proofs.«412043_j6554120093747_3_alg».proof.Proof.Gen.ReferenceIdeal.Run
import proofs.«412043_j6554120093747_3_alg».proof.Proof.Gen.ReferenceIdeal.Read
import proofs.«412043_j6554120093747_3_alg».proof.Proof.Bridge
import Idealize.ShloMosaic.Adequacy
import Idealize.ShloMosaic.Init

noncomputable section

namespace Cert.Proof

open Idealize.ShloMosaic Idealize.SL.Sem

/-- The idealised kernel's run, with what it says of the result dropped. -/
theorem frame_KernelIdeal : frame_KernelIdeal := fun m ρ _ =>
  (θ_run Cert.KernelIdeal.defs _ _).mono (fun _ h c => (h c).2) (Cert.KernelIdeal.Value.run (F := Ideal) m ρ)

/-- The reference's run, with what it says of the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- Both runs end; the kernel's result array is its blockwise fold, the reference's its composed term, and on
    arguments that agree and satisfy the precondition the two are one array (`Bridge.result_eq`). -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5⟩ := hagree c
  rw [(h c).1, Cert.ReferenceIdeal.Read.val_main_v26_eq, e0, e1, e2, e3, e4, e5]
  exact Bridge.result_eq m hpre c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
